-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x640000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S5000x128 : Shape := ⟨2, ![5000, 128]⟩

abbrev nBuf : Space → Nat
  | .hbm => 24
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .f32⟩
  | .hbm, ⟨18, _⟩ => ⟨S100000x128, .f32⟩
  | .hbm, ⟨19, _⟩ => ⟨S640000x1, .i32⟩
  | .hbm, ⟨20, _⟩ => ⟨S100000x128, .f32⟩
  | .hbm, ⟨21, _⟩ => ⟨S128x128, .f32⟩
  | .hbm, ⟨22, _⟩ => ⟨S1x128, .f32⟩
  | .hbm, ⟨23, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .f32⟩
  | .hbm, ⟨18, _⟩ => ⟨S100000x128, .f32⟩
  | .hbm, ⟨19, _⟩ => ⟨S640000x1, .i32⟩
  | .hbm, ⟨20, _⟩ => ⟨S100000x128, .f32⟩
  | .hbm, ⟨21, _⟩ => ⟨S100000x128, .f32⟩
  | .hbm, ⟨22, _⟩ => ⟨S128x128, .f32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.BlockProduct.lean ====
/-
  What the kernel body stores, read at row `p` and feature `q` of its [5000, 128] block, on the extended reals:
  from the blocks `xb` (rows of `x`), `ab` (the same rows of the neighbour sums), `wt` (the transposed weight, whole)
  and `bb` (the bias as a [1, 128] row),

      (∑ k < 128, (xb[p, k] + ab[p, k]) · wt[k, q]) + bb[0, q].

  The two roundings to bf16 are the identity on the extended reals, the matrix unit's product into a zero accumulator is
  the plain sum over the contraction coordinate, and the bias row is broadcast down the rows.
-/
import proofs.«158581_j45792941310039_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen
open Idealize.ShloMosaic Idealize.ShloMosaic.ValueIdx

/-! ## The product's operand indices -/

theorem lhs_rows (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
theorem rhs_contr (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
theorem rhs_cols (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product into the zero accumulator, at `(p, q)`: the sum over `k` of `L[p, k] · R[k, q]`. -/
theorem product_apply (L : FVec Ideal S5000x128 .bf16) (R : FVec Ideal S128x128 .bf16) (p : Fin 5000) (q : Fin 128) :
    matmul dot_S5000x128_S128x128_S5000x128_1_0_0_1_n_n none L R (constant (F := Ideal) S5000x128 .f32 0x00000000#32) (ix2 p q)
      = ∑ k : Fin 128, L (ix2 p k) * R (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_rows _ _
    | ⟨1, _⟩ => exact (lhs_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_contr _ _).trans hk
    | ⟨1, _⟩ => exact rhs_cols _ _)
  rw [el, er]

/-- The bias row broadcast down the block's rows, at `(p, q)`: `bb[0, q]`. -/
theorem bias_apply (bb : FVec Ideal S1x128 .f32) (p : Fin 5000) (q : Fin 128) :
    broadcastTo S5000x128 bb broadcasts_S1x128_S5000x128 (ix2 p q) = bb (ix2 (0 : Fin 1) q) :=
  broadcastTo_apply bb broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else _; rw [if_neg (by decide)]; rfl)

/-- The stored value at `(p, q)`. -/
theorem stored_apply (xb ab : Vec Ideal S5000x128 .f32) (wt : Vec Ideal S128x128 .f32) (bb : Vec Ideal S1x128 .f32)
    (p : Fin 5000) (q : Fin 128) :
    k0_pay1 (F := Ideal) xb ab wt bb (ix2 p q)
      = (∑ k : Fin 128, (xb (ix2 p k) + ab (ix2 p k)) * wt (ix2 k q)) + bb (ix2 (0 : Fin 1) q) := by
  unfold k0_pay1
  simp only [shapeCast_self]
  rw [addf_apply, product_apply, bias_apply]
  rfl

end Cert.KernelIdeal.Block

end
-- ==== Proof.Layer.lean ====
/-
  The layer both programs compute, as one function of the arrays, index by index, on the extended reals.
  With `a` the neighbour sums (row `n` of `a` is the sum of the rows `x[src e]` over the edges `e` with
  `dst e = n`), output feature `j` of node `n` is

      out[n, j] = (∑ k < 128, (x[n, k] + a[n, k]) · W[j, k]) + b[j]

  — the residual add, then the linear map `h ↦ h · Wᵀ + b`. Nothing here opens `a`: both programs build it by the
  same gather and scatter-add of the same arguments, and only that it is ONE array on both sides is used.
-/
import Idealize.ShloMosaic.PureOps.Ideal
import Idealize.ShloMosaic.Lib.ValueIdx

noncomputable section

namespace Cert.Layer

open Idealize.ShloMosaic Idealize.ShloMosaic.ValueIdx

/-- Nodes × features, features × features, features. -/
abbrev SNodes : Shape := ⟨2, ![100000, 128]⟩
abbrev SWeight : Shape := ⟨2, ![128, 128]⟩
abbrev SBias : Shape := ⟨1, ![128]⟩

/-- Output feature `j` of node `n`: the row `x[n] + a[n]` against row `j` of `W`, plus `b[j]`. -/
def entry (x a : FVec Ideal SNodes .f32) (W : FVec Ideal SWeight .f32) (b : FVec Ideal SBias .f32)
    (n : Fin 100000) (j : Fin 128) : EReal :=
  (∑ k : Fin 128, (x (ix2 n k) + a (ix2 n k)) * W (ix2 j k)) + b (ix1 j)

/-- The whole output array. -/
def out (x a : FVec Ideal SNodes .f32) (W : FVec Ideal SWeight .f32) (b : FVec Ideal SBias .f32) :
    FVec Ideal SNodes .f32 :=
  fun i => entry x a W b (i 0) (i 1)

theorem out_apply (x a : FVec Ideal SNodes .f32) (W : FVec Ideal SWeight .f32) (b : FVec Ideal SBias .f32)
    (n : Fin 100000) (j : Fin 128) : out x a W b (ix2 n j) = entry x a W b n j := rfl

end Cert.Layer

end
-- ==== Proof.KernelLayer.lean ====
/-
  The kernel's result array is the layer. The grid has 20 points; point `t` stages rows `5000·t … 5000·t + 4999` of `x`
  and of the neighbour sums, the whole transposed weight and the bias row, and writes back the same rows of the
  result. So what point `t` writes, at row `p` and feature `q` of its block, is the layer's entry at node
  `5000·t + p` and feature `q` (the transposed weight read at `(k, q)` is `W[q, k]`, the bias row at `(0, q)` is `b[q]`),
  and the 20 row blocks cover the array: node `n` lies in block `n / 5000`.
  The neighbour sums are the array the region finds in its second window (the host's scatter-add), unopened.
-/
import proofs.«158581_j45792941310039_1_alg».proof.Proof.Gen.KernelIdeal.Value
import proofs.«158581_j45792941310039_1_alg».proof.Proof.BlockProduct
import proofs.«158581_j45792941310039_1_alg».proof.Proof.Layer
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The arrays the region finds -/

/-- The neighbour sums: the host's scatter-add of the gathered rows, as the region finds it. -/
abbrev nbr (c : Dev nD) : FVec Ideal S100000x128 .f32 := V m c main_v13
/-- The transposed weight and the bias row, as the region finds them. -/
abbrev wT (c : Dev nD) : FVec Ideal S128x128 .f32 := V m c main_v14
abbrev bRow (c : Dev nD) : FVec Ideal S1x128 .f32 := V m c main_v15

theorem wT_eq (c : Dev nD) :
    wT m c = transpose S128x128 [1, 0] (m ((c : Thread nD τ).loc main_arg2)) transposes_S128x128_S128x128_1_0 := by
  dsimp only [wT, V, hostOps0]; after_results

theorem bRow_eq (c : Dev nD) :
    bRow m c = shapeCast S1x128 (m ((c : Thread nD τ).loc main_arg3)) shapeCasts_S128_S1x128 := by
  dsimp only [bRow, V, hostOps0]; after_results; rfl

/-- The transposed weight at `(k, q)` is the weight at `(q, k)`. -/
theorem wT_apply (c : Dev nD) (k q : Fin 128) :
    wT m c (ix2 k q) = (m ((c : Thread nD τ).loc main_arg2) : FVec Ideal S128x128 .f32) (ix2 q k) := by
  rw [wT_eq]
  exact transpose_apply [1, 0] _ transposes_S128x128_S128x128_1_0 (ix2 k q) (ix2 q k) (fun b => match b with
    | ⟨0, _⟩ => rfl
    | ⟨1, _⟩ => rfl)

/-- The bias row at `(0, q)` is the bias at `q`. -/
theorem bRow_apply (c : Dev nD) (q : Fin 128) :
    bRow m c (ix2 (0 : Fin 1) q) = (m ((c : Thread nD τ).loc main_arg3) : FVec Ideal S128 .f32) (ix1 q) := by
  rw [bRow_eq]
  exact shapeCast_apply _ shapeCasts_S128_S1x128 (ix2 (0 : Fin 1) q) (ix1 q)
    (by rewrite [Shape.rowMajor_val_one, Shape.rowMajor_val_two]; show q.val = 0 * 128 + q.val; omega)

/-! ## The result -/

/-- The layer of the launch arguments and of the neighbour sums the region finds. -/
def result (c : Dev nD) : FVec Ideal S100000x128 .f32 :=
  Cert.Layer.out (m ((c : Thread nD τ).loc main_arg0)) (nbr m c) (m ((c : Thread nD τ).loc main_arg2)) (m ((c : Thread nD τ).loc main_arg3))

/-- One point, over plain blocks: if the two row blocks are rows `5000·T + p` of `x` and `a`, the weight block is `W`
    transposed and the bias block is `b` as a row, then the stored value at `j` is the layer at the node and feature
    `j` names. -/
theorem point_eq (xb ab : Vec Ideal S5000x128 .f32) (wt : Vec Ideal S128x128 .f32) (bb : Vec Ideal S1x128 .f32)
    (x a : FVec Ideal S100000x128 .f32) (W : FVec Ideal S128x128 .f32) (b : FVec Ideal S128 .f32) (T : Nat) (hT : T < 20)
    (hx : ∀ (p : Fin 5000) (k : Fin 128), xb (ix2 p k) = x (ix2 ⟨T * 5000 + p.val, by have := p.isLt; omega⟩ k))
    (ha : ∀ (p : Fin 5000) (k : Fin 128), ab (ix2 p k) = a (ix2 ⟨T * 5000 + p.val, by have := p.isLt; omega⟩ k))
    (hw : ∀ k q : Fin 128, wt (ix2 k q) = W (ix2 q k))
    (hb : ∀ q : Fin 128, bb (ix2 (0 : Fin 1) q) = b (ix1 q))
    (j : S5000x128.Idx) (i : S100000x128.Idx) (hi0 : (i 0).val = T * 5000 + (j 0).val) (hi1 : (i 1).val = (j 1).val) :
    k0_pay1 (F := Ideal) xb ab wt bb j = Cert.Layer.out x a W b i := by
  obtain ⟨p, q, rfl⟩ : ∃ (p : Fin 5000) (q : Fin 128), j = ix2 p q := ⟨j 0, j 1, eq_ix2 j⟩
  have hi : i = ix2 ⟨T * 5000 + p.val, by have := p.isLt; omega⟩ q := by
    rw [eq_ix2 i]; congr 1
    · exact Fin.ext hi0
    · exact Fin.ext hi1
  rw [hi, Cert.KernelIdeal.Block.stored_apply, Cert.Layer.out_apply]
  unfold Cert.Layer.entry
  simp only [hx, ha, hw, hb]

/-- Where each window's block sits at point `t`: the row windows at block row `t`, the weight and bias whole. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 20 := lt_of_lt_of_eq t.isLt N_0

/-- Point `t`'s block of `x` is rows `5000·t + p` of the launch argument. -/
theorem xblk_apply (c : Dev nD) (t : Fin cfg0.N) (p : Fin 5000) (k : Fin 128) :
    (iblk m c 0 t : Vec Ideal S5000x128 .f32) (ix2 p k)
      = (m ((c : Thread nD τ).loc main_arg0) : FVec Ideal S100000x128 .f32) (ix2 ⟨t.val * 5000 + p.val, by have := p.isLt; have := point_lt t; omega⟩ k) := by
  obtain ⟨e0, e1, -⟩ := idx_facts t
  show V m c main_arg0 (((cfg0.win 0).blk t).view.emb (ix2 p k)) = _
  rw [V_main_arg0]
  congr 1
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- Point `t`'s block of the neighbour sums is the same rows of them. -/
theorem ablk_apply (c : Dev nD) (t : Fin cfg0.N) (p : Fin 5000) (k : Fin 128) :
    (iblk m c 1 t : Vec Ideal S5000x128 .f32) (ix2 p k)
      = nbr m c (ix2 ⟨t.val * 5000 + p.val, by have := p.isLt; have := point_lt t; omega⟩ k) := by
  obtain ⟨-, -, e0, e1, -⟩ := idx_facts t
  show V m c main_v13 (((cfg0.win 1).blk t).view.emb (ix2 p k)) = V m c main_v13 _
  congr 1
  funext a; apply Fin.ext
  match a with
  | ⟨0, _⟩ => show win0_1.index t (0 : Fin 2) * 5000 + 1 * p.val = t.val * 5000 + p.val; omega
  | ⟨1, _⟩ => show win0_1.index t (1 : Fin 2) * 128 + 1 * k.val = k.val; omega

/-- The weight window's block is the whole transposed weight, at every point. -/
theorem wblk_apply (c : Dev nD) (t : Fin cfg0.N) (k q : Fin 128) :
    (iblk m c 2 t : Vec Ideal S128x128 .f32) (ix2 k q) = wT m c (ix2 k q) := by
  obtain ⟨-, -, -, -, e0, e1, -⟩ := idx_facts t
  show V m c main_v14 (((cfg0.win 2).blk t).view.emb (ix2 k q)) = V m c main_v14 _
  congr 1
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-- The bias window's block is the whole bias row, at every point. -/
theorem bblk_apply (c : Dev nD) (t : Fin cfg0.N) (q : Fin 128) :
    (iblk m c 3 t : Vec Ideal S1x128 .f32) (ix2 (0 : Fin 1) q) = bRow m c (ix2 (0 : Fin 1) q) := by
  obtain ⟨-, -, -, -, -, -, e0, e1, -⟩ := idx_facts t
  show V m c main_v15 (((cfg0.win 3).blk t).view.emb (ix2 (0 : Fin 1) q)) = V m c main_v15 _
  congr 1
  funext a; apply Fin.ext
  match a with
  | ⟨0, _⟩ => show win0_3.index t (0 : Fin 2) * 1 + 1 * 0 = 0; omega
  | ⟨1, _⟩ => show win0_3.index t (1 : Fin 2) * 128 + 1 * q.val = q.val; omega

/-- What point `t` writes back is its row block of `result`. -/
theorem flushed_eq (c : Dev nD) (t : Fin cfg0.N) :
    (dats m 0 c).flushed 4 t = ((cfg0.win 4).blk t).view.read (Elt Ideal) (result m c) := by
  rw [flushed4]
  unfold out0_4
  rw [View.canon_unit_zero zero_offsets]
  simp only [View.ld_unit_zero (S := S5000x128) zero_offsets, View.ld_unit_zero (S := S128x128) zero_offsets,
    View.ld_unit_zero (S := S1x128) zero_offsets]
  obtain ⟨-, -, -, -, -, -, -, -, e0, e1⟩ := idx_facts t
  funext j
  show k0_pay1 (F := Ideal) (iblk m c 0 t) (iblk m c 1 t) (iblk m c 2 t) (iblk m c 3 t) j
    = result m c (((cfg0.win 4).blk t).view.emb j)
  unfold result
  refine point_eq (iblk m c 0 t) (iblk m c 1 t) (iblk m c 2 t) (iblk m c 3 t)
    (m ((c : Thread nD τ).loc main_arg0)) (nbr m c) (m ((c : Thread nD τ).loc main_arg2)) (m ((c : Thread nD τ).loc main_arg3))
    t.val (point_lt t) (xblk_apply m c t) (ablk_apply m c t)
    (fun k q => (wblk_apply m c t k q).trans (wT_apply m c k q))
    (fun q => (bblk_apply m c t q).trans (bRow_apply m c q)) j (((cfg0.win 4).blk t).view.emb j) ?_ ?_
  · show win0_4.index t (0 : Fin 2) * 5000 + 1 * (j 0).val = t.val * 5000 + (j 0).val; omega
  · show win0_4.index t (1 : Fin 2) * 128 + 1 * (j 1).val = (j 1).val; omega

/-- An index of the result array is in point `t`'s block iff each coordinate is in the block's range on its axis. -/
theorem mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v16).slice (win0_4.rect t)).set ↔ _
  rw [View.set_slice_whole, Rect.mem_set_unit]
  exact Iff.rfl

/-- The 20 row blocks cover the array: node `n` is in block `n / 5000`. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have ht : t.val = (i 0).val / 5000 := rfl
  obtain ⟨-, -, -, -, -, -, -, -, e0, e1⟩ := idx_facts t
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- So the result array ends holding `result`. -/
theorem final (c : Dev nD) : (dats m 0 c).arrAt 4 cfg0.N = result m c :=
  (dats m 0 c).arrAt_eq_of_cover 4 (result m c) (fun t _ => flushed_eq m c t) cover

/-- The kernel's run, read: the result array at the layer, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Whole

end
-- ==== Proof.ReferenceLayer.lean ====
/-
  The reference's result is the layer: its last stage, read at node `n` and feature `j`, is the host's sum over `k` of
  `(x + a)[n, k] · Wᵀ[k, j]` plus the bias broadcast to every node, and `Wᵀ[k, j] = W[j, k]`, `bias[n, j] = b[j]`.
  The neighbour sums `a` stay the reference's own stage (its scatter-add of the gathered rows), unopened.
-/
import proofs.«158581_j45792941310039_1_alg».proof.Proof.Gen.ReferenceIdeal.Read
import proofs.«158581_j45792941310039_1_alg».proof.Proof.Layer

noncomputable section

namespace Cert.ReferenceIdeal.RefValue

open Cert.ReferenceIdeal Cert.ReferenceIdeal.Gen Cert.ReferenceIdeal.Read
open Idealize.ShloMosaic Idealize.ShloMosaic.ValueIdx

/-- The left factor's index in the host's product: node `n`, contraction coordinate `k`. -/
theorem lidx_eq (n : Fin 100000) (j k : Fin 128) : lidx_main_v16 (ix2 n j) k = ix2 n k :=
  funext fun a => Fin.ext (by match a with | ⟨0, _⟩ => rfl | ⟨1, _⟩ => rfl)

/-- The right factor is the transposed weight at `(k, j)`, which is the weight at `(j, k)`. -/
theorem ridx_eq (n : Fin 100000) (j k : Fin 128) : idx_main_v15 (ridx_main_v16 (ix2 n j) k) = ix2 j k :=
  funext fun a => Fin.ext (by match a with | ⟨0, _⟩ => rfl | ⟨1, _⟩ => rfl)

/-- The bias broadcast over the nodes, read at `(n, j)`, is `b[j]`. -/
theorem bidx_eq (n : Fin 100000) (j : Fin 128) : idx_main_v17 (idx_main_v18 (ix2 n j)) = ix1 j :=
  funext fun a => Fin.ext (by match a with | ⟨0, _⟩ => rfl)

/-- The reference's last stage at `Ideal` is the layer of the arguments and of its own neighbour sums. -/
theorem result_eq (x0 : (⟨S100000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal)) :
    val_main_v19 (F := Ideal) x0 x1 x2 x3 = Cert.Layer.out x0 (val_main_v13 (F := Ideal) x0 x1) x2 x3 := by
  funext i
  obtain ⟨n, j, rfl⟩ : ∃ (n : Fin 100000) (j : Fin 128), i = ix2 n j := ⟨i 0, i 1, eq_ix2 i⟩
  rw [val_main_v19_apply, val_main_v16_apply, val_main_v18_apply, val_main_v17_apply, Cert.Layer.out_apply]
  simp only [val_main_v14_apply, val_main_v15_apply, lidx_eq, ridx_eq, bidx_eq, Ideal.addf_def, Cert.Layer.entry]

end Cert.ReferenceIdeal.RefValue

end
-- ==== Proof.SameSums.lean ====
/-
  The neighbour sums are one array on both sides. The kernel's program builds them on the host before its region, the
  reference builds them as its own stage, and the two texts are the same operations of the same two arguments, in the
  same order: split the edge list into sources and targets, wrap a negative source index by the node count, gather the
  source rows of `x`, scatter-add them at the targets into zeros. Nothing is computed here: the two terms are compared
  operation by operation.
-/
import proofs.«158581_j45792941310039_1_alg».proof.Proof.Gen.KernelIdeal.Frame
import proofs.«158581_j45792941310039_1_alg».proof.Proof.Gen.ReferenceIdeal.Read
import Idealize.ShloMosaic.Lib.StableHlo.Run

noncomputable section

namespace Cert.Proof.Sums

open Idealize.ShloMosaic Idealize.ShloMosaic.TcCoe Idealize.SL.Sem

/-- What the region finds in its second window is the reference's scatter-add stage of the kernel's own arguments. -/
theorem nbr_eq (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v13
      = Cert.ReferenceIdeal.Read.val_main_v13 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  dsimp only [Cert.KernelIdeal.Gen.V, Cert.KernelIdeal.Gen.hostOps0]
  after_results
  rfl

end Cert.Proof.Sums

end
-- ==== Proof.lean ====
/-
  A graph layer: every node adds to its own feature row the sum of its in-neighbours' rows, and the sum goes through a
  linear map, `out = (x + a) · Wᵀ + b` with `a[n] = ∑ over edges e with dst e = n of x[src e]`.

  Both programs build the neighbour sums `a` on the host by the same gather and scatter-add of the same arguments
  (Proof/SameSums.lean), so `a` is one array on both sides and is never opened. The kernel then computes the residual add
  and the linear map in 20 row blocks of 5000 nodes, its matrix product taken in bf16 with an f32 accumulator; on the
  extended reals a change of format is the identity and the product into a zero accumulator is the plain sum over the
  128 input features, so each block is the layer's rows (Proof/BlockProduct.lean, Proof/KernelLayer.lean). The reference
  computes the same sum by one host product against the transposed weight and adds the broadcast bias
  (Proof/ReferenceLayer.lean). Both are `Cert.Layer.out` (Proof/Layer.lean), entry by entry, with no law beyond reading the
  two sums at an index: no finiteness is used.
-/
import proofs.«158581_j45792941310039_1_alg».proof.Defs
import proofs.«158581_j45792941310039_1_alg».proof.Proof.Gen.Kernel
import proofs.«158581_j45792941310039_1_alg».proof.Proof.Gen.Kernel.Skeleton
import proofs.«158581_j45792941310039_1_alg».proof.Proof.Gen.Kernel.Launch
import proofs.«158581_j45792941310039_1_alg».proof.Proof.Gen.Kernel.Points
import proofs.«158581_j45792941310039_1_alg».proof.Proof.Gen.Kernel.Frame
import proofs.«158581_j45792941310039_1_alg».proof.Proof.Gen.KernelIdeal
import proofs.«158581_j45792941310039_1_alg».proof.Proof.Gen.KernelIdeal.Skeleton
import proofs.«158581_j45792941310039_1_alg».proof.Proof.Gen.KernelIdeal.Launch
import proofs.«158581_j45792941310039_1_alg».proof.Proof.Gen.KernelIdeal.Points
import proofs.«158581_j45792941310039_1_alg».proof.Proof.Gen.KernelIdeal.Frame
import proofs.«158581_j45792941310039_1_alg».proof.Proof.Gen.ReferenceIdeal
import proofs.«158581_j45792941310039_1_alg».proof.Proof.Gen.Pre_finite_inputs
import proofs.«158581_j45792941310039_1_alg».proof.Proof.Gen.KernelIdeal.Value
import proofs.«158581_j45792941310039_1_alg».proof.Proof.Gen.ReferenceIdeal.Run
import proofs.«158581_j45792941310039_1_alg».proof.Proof.Gen.ReferenceIdeal.Read
import proofs.«158581_j45792941310039_1_alg».proof.Proof.KernelLayer
import proofs.«158581_j45792941310039_1_alg».proof.Proof.ReferenceLayer
import proofs.«158581_j45792941310039_1_alg».proof.Proof.SameSums
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals both programs end with the layer of the arguments: the kernel by its 20 row blocks, the
    reference by its host product, over one array of neighbour sums. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq,
    (hagree c).1, (hagree c).2.1, (hagree c).2.2.1, (hagree c).2.2.2, ← Cert.Proof.Sums.nbr_eq m c]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
